-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_arg6 : FVec F S50000x128 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S50000x128 .f32 := Host.absf main_arg6
  let main_cst_8 : FVec F S_ .f32 := constant S_ .f32 0x7F800000#32
  let main_v25 : FVec F S50000x128 .f32 := broadcastInDim S50000x128 ![] bcast_S_S50000x128 main_cst_8
  let main_v26 : IVec S50000x128 1 := cmpf .olt main_v24 main_v25
  let main_c_9 : IVec S_ 1 := constantI S_ 1 1#1
  let main_v27 : IVec S_ 1 := (fun x v => Host.reduce IntOp.andi x v reducesTo_S50000x128_S_d0_1 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x128 .f32) (main_arg3 : FVec F S128 .f32) (main_arg4 : FVec F S128x16 .f32) (main_arg5 : FVec F S16 .f32) (main_arg6 : FVec F S50000x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 65
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S50000x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S1x16, .f32⟩
  | .hbm, ⟨64, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x16, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .f32 = 32 ∨ (Rect.block (s := S128x16) S128x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S50000x16.size a
  hwx1_3 : ∀ i : grid1.Coords, EltTy.bits .f32 = 32 ∨ (Rect.block (s := S50000x16) S5000x16.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x16 : Shape := ⟨2, ![50000, 16]⟩
abbrev S1x16 : Shape := ⟨2, ![1, 16]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S50000x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .f32⟩
  | .hbm, ⟨58, _⟩ => ⟨S800000, .f32⟩
  | .hbm, ⟨59, _⟩ => ⟨S_, .f32⟩
  | .hbm, ⟨60, _⟩ => ⟨S50000, .f32⟩
  | .hbm, ⟨61, _⟩ => ⟨S800000x1, .i32⟩
  | .hbm, ⟨62, _⟩ => ⟨S50000, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x16, .f32⟩
  | .hbm, ⟨70, _⟩ => ⟨S1x16, .f32⟩
  | .hbm, ⟨71, _⟩ => ⟨S50000x16, .f32⟩
  | .hbm, ⟨72, _⟩ => ⟨S50000x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KernelPay.lean ====
/-
  The two kernel bodies' stored values, read entry by entry over the extended reals.

  Region 0 stores, at row `p` and column `q` of its 5000-row block,
      max (∑ₖ x[p,k] · w[k,q] + b[0,q]) 0 · mask[p,q],
  region 1 stores  ∑ₖ x[p,k] · w[k,q] + b[0,q]:  the casts to bf16 are the identity on the extended reals, the
  matrix product into a zero accumulator is the plain sum over the 128 contracted coordinates, and the bias row is
  broadcast over the rows.
-/
import proofs.«116009_j10436770529504_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ### The contraction of region A's matmul: operand indices at an output index -/

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product into a zero accumulator, read at row `p` and column `q`: the sum over the 128 shared
    coordinates of the row's entry times the column's. -/
theorem matmulA_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### The contraction of region B's matmul: operand indices at an output index -/

theorem lhsB_0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem lhsB_1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
theorem rhsB_0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
theorem rhsB_1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The body's matrix product into a zero accumulator, read at row `p` and column `q`: the sum over the 128 shared
    coordinates of the row's entry times the column's. -/
theorem matmulB_apply (x : FVec Ideal S5000x128 .bf16) (w : FVec Ideal S128x16 .bf16) (p : Fin 5000) (q : Fin 16) :
    matmul dot_S5000x128_S128x16_S5000x16_1_0_0_1_n_n none x w (constant S5000x16 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx (ix2 p q) ((ValueIdx.contrEquiv1 dot_S5000x128_S128x16_S5000x16_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x16_S5000x16_1_0_0_1_n_n.rhsIdx (ix2 p q) ((ValueIdx.contrEquiv1 dot_S5000x128_S128x16_S5000x16_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ### The stored values at an entry -/

/-- Region 0's stored value at `(p, q)`: the row of `x0` against the column of `x1`, plus the bias, clamped below at
    zero, times the mask's entry. -/
theorem pay0_apply (x0 : Vec Ideal S5000x128 .f32) (x1 : Vec Ideal S128x128 .f32) (x2 : Vec Ideal S1x128 .f32)
    (x3 : Vec Ideal S5000x128 .f32) (p : Fin 5000) (q : Fin 128) :
    k0_pay1 x0 x1 x2 x3 (ix2 p q)
      = max ((∑ k : Fin 128, x0 (ix2 p k) * x1 (ix2 k q)) + x2 (ix2 (0 : Fin 1) q)) (Ideal.ofBits .f32 0x00000000#32)
          * x3 (ix2 p q) := by
  unfold k0_pay1
  simp only [mulf_apply, maximumf_apply, addf_apply, broadcast_apply]
  rw [matmulA_apply, broadcastTo_1b_ab_apply, shapeCast_self, shapeCast_self]
  simp only [truncf_apply]
  rfl

/-- Region 1's stored value at `(p, q)`: the row of `x0` against the column of `x1`, plus the bias. -/
theorem pay1_apply (x0 : Vec Ideal S5000x128 .f32) (x1 : Vec Ideal S128x16 .f32) (x2 : Vec Ideal S1x16 .f32)
    (p : Fin 5000) (q : Fin 16) :
    k1_pay1 x0 x1 x2 (ix2 p q) = (∑ k : Fin 128, x0 (ix2 p k) * x1 (ix2 k q)) + x2 (ix2 (0 : Fin 1) q) := by
  unfold k1_pay1
  simp only [addf_apply]
  rw [matmulB_apply, broadcastTo_1b_ab_apply, shapeCast_self, shapeCast_self]
  simp only [truncf_apply]

end Cert.KernelIdeal.Pay

end
-- ==== Proof.Layers.lean ====
/-
  The two dense layers of the network, as functions of whole arrays over the extended reals.

  An entry of a dense layer is a row of the node features against a column of the weights, plus that column's bias:
      affine h w b p q = ∑ₖ h[p,k] · w[k,q] + b[0,q]      (128 contracted coordinates).
  The hidden layer clamps it below at zero and multiplies by the dropout mask's entry; the output layer is the affine
  map itself. Both the tiled kernels and the plain array program compute exactly these entries.
-/
import Idealize.ShloMosaic.PureOps.Ideal
import Idealize.ShloMosaic.Lib.ValueIdx

noncomputable section

namespace Cert.Layers

open Idealize.ShloMosaic Idealize.ShloMosaic.ValueIdx

/-- Row `p` of `h` against column `q` of `w`, plus the bias row's entry at `q`. -/
def affine {M N : Nat} (h : FVec Ideal ⟨2, ![M, 128]⟩ .f32) (w : FVec Ideal ⟨2, ![128, N]⟩ .f32)
    (b : FVec Ideal ⟨2, ![1, N]⟩ .f32) (p : Fin M) (q : Fin N) : EReal :=
  (∑ k : Fin 128, h (ix2 p k) * w (ix2 k q)) + b (ix2 (0 : Fin 1) q)

/-- The hidden layer on all 50000 nodes: the affine map, clamped below at zero, times the mask. -/
def hidden (h : FVec Ideal ⟨2, ![50000, 128]⟩ .f32) (w : FVec Ideal ⟨2, ![128, 128]⟩ .f32)
    (b : FVec Ideal ⟨2, ![1, 128]⟩ .f32) (mk : FVec Ideal ⟨2, ![50000, 128]⟩ .f32) : FVec Ideal ⟨2, ![50000, 128]⟩ .f32 :=
  fun i => max (affine h w b ⟨(i 0).val, idx2_lt0 i⟩ ⟨(i 1).val, idx2_lt1 i⟩) (Ideal.ofBits .f32 0x00000000#32) * mk i

theorem hidden_apply (h : FVec Ideal ⟨2, ![50000, 128]⟩ .f32) (w : FVec Ideal ⟨2, ![128, 128]⟩ .f32)
    (b : FVec Ideal ⟨2, ![1, 128]⟩ .f32) (mk : FVec Ideal ⟨2, ![50000, 128]⟩ .f32) (p : Fin 50000) (q : Fin 128) :
    hidden h w b mk (ix2 p q) = max (affine h w b p q) (Ideal.ofBits .f32 0x00000000#32) * mk (ix2 p q) := rfl

/-- The output layer on all 50000 nodes: the affine map into the 16 classes. -/
def logits (h : FVec Ideal ⟨2, ![50000, 128]⟩ .f32) (w : FVec Ideal ⟨2, ![128, 16]⟩ .f32)
    (b : FVec Ideal ⟨2, ![1, 16]⟩ .f32) : FVec Ideal ⟨2, ![50000, 16]⟩ .f32 :=
  fun i => affine h w b ⟨(i 0).val, idx2_lt0 i⟩ ⟨(i 1).val, idx2_lt1 i⟩

theorem logits_apply (h : FVec Ideal ⟨2, ![50000, 128]⟩ .f32) (w : FVec Ideal ⟨2, ![128, 16]⟩ .f32)
    (b : FVec Ideal ⟨2, ![1, 16]⟩ .f32) (p : Fin 50000) (q : Fin 16) :
    logits h w b (ix2 p q) = affine h w b p q := rfl

end Cert.Layers

end
-- ==== Proof.RegionValues.lean ====
/-
  What each of the two tiled kernels leaves in its output array, as ONE function of the arrays it finds on entry.

  Each kernel walks ten blocks of 5000 rows. At block `t` the row-tiled windows (node features, mask, output) sit at
  rows `5000·t … 5000·t + 4999` and the weight and bias windows at the whole of their arrays, so the entry the body
  stores at `(p, q)` of its block is the dense layer's entry at row `5000·t + p` and column `q` of the whole
  arrays. The ten blocks tile the 50000 rows, so the output array ends as the layer's function of the entry arrays:
  `Layers.hidden` for the first kernel, `Layers.logits` for the second. The entry arrays are a parameter `V` here.
-/
import proofs.«116009_j10436770529504_1_alg».proof.Proof.Gen.KernelIdeal.Frame
import proofs.«116009_j10436770529504_1_alg».proof.Proof.KernelPay
import proofs.«116009_j10436770529504_1_alg».proof.Proof.Layers
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first kernel: the hidden layer -/

/-- The printed index maps over the ten points: the row-tiled windows sit at block row `t`, the others at the origin. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Block `t` of the node features at `(p, k)` is the array at row `5000·t + p`. -/
theorem read0_0 (c : Dev nD) (t : Fin cfg0.N) (p : Fin 5000) (k : Fin 128) (h : t.val * 5000 + p.val < 50000) :
    iblk0 V c 0 t (ix2 p k) = V c main_v22 (ix2 ⟨t.val * 5000 + p.val, h⟩ k) := by
  obtain ⟨e0, e1, -⟩ := idx0 t
  show V c main_v22 (((cfg0.win 0).blk t).view.emb (ix2 p k)) = _
  refine congrArg (V c main_v22) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight window is the whole weight array at every point. -/
theorem read0_1 (c : Dev nD) (t : Fin cfg0.N) (k : Fin 128) (q : Fin 128) :
    iblk0 V c 1 t (ix2 k q) = V c main_arg2 (ix2 k q) := by
  obtain ⟨-, -, e0, e1, -⟩ := idx0 t
  show V c main_arg2 (((cfg0.win 1).blk t).view.emb (ix2 k q)) = _
  refine congrArg (V c main_arg2) (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The bias window is the whole bias row at every point. -/
theorem read0_2 (c : Dev nD) (t : Fin cfg0.N) (q : Fin 128) :
    iblk0 V c 2 t (ix2 (0 : Fin 1) q) = V c main_v23 (ix2 (0 : Fin 1) q) := by
  obtain ⟨-, -, -, -, e0, e1, -⟩ := idx0 t
  show V c main_v23 (((cfg0.win 2).blk t).view.emb (ix2 (0 : Fin 1) q)) = _
  refine congrArg (V c main_v23) (funext fun a => Fin.ext ?_)
  match a with
  | ⟨0, _⟩ => show win0_2.index t (0 : Fin 2) * 1 + 1 * 0 = 0; rw [e0]
  | ⟨1, _⟩ => show win0_2.index t (1 : Fin 2) * 128 + 1 * q.val = q.val; rw [e1]; omega

/-- Block `t` of the mask at `(p, q)` is the array at row `5000·t + p`. -/
theorem read0_3 (c : Dev nD) (t : Fin cfg0.N) (p : Fin 5000) (q : Fin 128) (h : t.val * 5000 + p.val < 50000) :
    iblk0 V c 3 t (ix2 p q) = V c main_arg6 (ix2 ⟨t.val * 5000 + p.val, h⟩ q) := by
  obtain ⟨-, -, -, -, -, -, e0, e1, -⟩ := idx0 t
  show V c main_arg6 (((cfg0.win 3).blk t).view.emb (ix2 p q)) = _
  refine congrArg (V c main_arg6) (funext fun a => Fin.ext ?_)
  match a with
  | ⟨0, _⟩ => show win0_3.index t (0 : Fin 2) * 5000 + 1 * p.val = t.val * 5000 + p.val; rw [e0]; omega
  | ⟨1, _⟩ => show win0_3.index t (1 : Fin 2) * 128 + 1 * q.val = q.val; rw [e1]; omega

/-- What point `t` writes back is block `t` of the hidden layer of the entry arrays. -/
theorem flushed0 (c : Dev nD) (t : Fin cfg0.N) :
    (dat0 V c).flushed 4 t = ((cfg0.win 4).blk t).view.read (Elt Ideal)
      (Layers.hidden (V c main_v22) (V c main_arg2) (V c main_v23) (V c main_arg6)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  funext j
  have hN : cfg0.N = 10 := N_0
  have ht : t.val < 10 := by have := t.isLt; omega
  have hj0 : (j 0).val < 5000 := (j 0).isLt
  have hj1 : (j 1).val < 128 := (j 1).isLt
  obtain ⟨p, q, rfl⟩ : ∃ (p : Fin 5000) (q : Fin 128), j = ix2 p q :=
    ⟨⟨(j 0).val, hj0⟩, ⟨(j 1).val, hj1⟩, funext fun a => Fin.ext (by match a with | ⟨0, _⟩ => rfl | ⟨1, _⟩ => rfl)⟩
  have hr : t.val * 5000 + p.val < 50000 := by have := p.isLt; omega
  obtain ⟨-, -, -, -, -, -, -, -, e0, e1⟩ := idx0 t
  have he : ((cfg0.win 4).blk t).view.emb (ix2 p q) = ix2 ⟨t.val * 5000 + p.val, hr⟩ q := funext fun a => Fin.ext (by
    match a with
    | ⟨0, _⟩ => show win0_4.index t (0 : Fin 2) * 5000 + 1 * p.val = t.val * 5000 + p.val; rw [e0]; omega
    | ⟨1, _⟩ => show win0_4.index t (1 : Fin 2) * 128 + 1 * q.val = q.val; rw [e1]; omega)
  show k0_pay1 (iblk0 V c 0 t) (iblk0 V c 1 t) (iblk0 V c 2 t) (iblk0 V c 3 t) (ix2 p q)
      = Layers.hidden (V c main_v22) (V c main_arg2) (V c main_v23) (V c main_arg6) (((cfg0.win 4).blk t).view.emb (ix2 p q))
  rw [he, Layers.hidden_apply]
  refine (Pay.pay0_apply (iblk0 V c 0 t) (iblk0 V c 1 t) (iblk0 V c 2 t) (iblk0 V c 3 t) p q).trans ?_
  simp only [read0_0 V c t p _ hr, read0_1 V c t, read0_2 V c t q, read0_3 V c t p q hr]
  rfl

/-- An index of the output array is in point `t`'s block iff each coordinate is in the block's range. -/
theorem mem_blk0 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v24).slice (win0_4.rect t)).set ↔ _
  rw [View.set_slice_whole, Rect.mem_set_unit]
  exact Iff.rfl

/-- Every row is in the block of the point `row / 5000`. -/
theorem cover0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_4 _, ?_⟩
  rw [mem_blk0]
  obtain ⟨-, -, -, -, -, -, -, -, e0, e1⟩ := idx0 ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- The first kernel's output array after its ten points: the hidden layer of the arrays it found. -/
theorem final0 (c : Dev nD) :
    (dat0 V c).arrAt 4 cfg0.N = Layers.hidden (V c main_v22) (V c main_arg2) (V c main_v23) (V c main_arg6) :=
  (dat0 V c).arrAt_eq_of_cover 4 _ (fun t _ => flushed0 V c t) cover0

/-! ## The second kernel: the output layer -/

/-- The printed index maps over the ten points: the row-tiled windows sit at block row `t`, the others at the origin. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block `t` of the node features at `(p, k)` is the array at row `5000·t + p`. -/
theorem read1_0 (c : Dev nD) (t : Fin cfg1.N) (p : Fin 5000) (k : Fin 128) (h : t.val * 5000 + p.val < 50000) :
    iblk1 V c 0 t (ix2 p k) = V c main_v43 (ix2 ⟨t.val * 5000 + p.val, h⟩ k) := by
  obtain ⟨e0, e1, -⟩ := idx1 t
  show V c main_v43 (((cfg1.win 0).blk t).view.emb (ix2 p k)) = _
  refine congrArg (V c main_v43) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The weight window is the whole weight array at every point. -/
theorem read1_1 (c : Dev nD) (t : Fin cfg1.N) (k : Fin 128) (q : Fin 16) :
    iblk1 V c 1 t (ix2 k q) = V c main_arg4 (ix2 k q) := by
  obtain ⟨-, -, e0, e1, -⟩ := idx1 t
  show V c main_arg4 (((cfg1.win 1).blk t).view.emb (ix2 k q)) = _
  refine congrArg (V c main_arg4) (funext fun a => Fin.ext ?_)
  match a with
  | ⟨0, _⟩ => show win1_1.index t (0 : Fin 2) * 128 + 1 * k.val = k.val; rw [e0]; omega
  | ⟨1, _⟩ => show win1_1.index t (1 : Fin 2) * 16 + 1 * q.val = q.val; rw [e1]; omega

/-- The bias window is the whole bias row at every point. -/
theorem read1_2 (c : Dev nD) (t : Fin cfg1.N) (q : Fin 16) :
    iblk1 V c 2 t (ix2 (0 : Fin 1) q) = V c main_v44 (ix2 (0 : Fin 1) q) := by
  obtain ⟨-, -, -, -, e0, e1, -⟩ := idx1 t
  show V c main_v44 (((cfg1.win 2).blk t).view.emb (ix2 (0 : Fin 1) q)) = _
  refine congrArg (V c main_v44) (funext fun a => Fin.ext ?_)
  match a with
  | ⟨0, _⟩ => show win1_2.index t (0 : Fin 2) * 1 + 1 * 0 = 0; rw [e0]
  | ⟨1, _⟩ => show win1_2.index t (1 : Fin 2) * 16 + 1 * q.val = q.val; rw [e1]; omega

/-- What point `t` writes back is block `t` of the output layer of the entry arrays. -/
theorem flushed1 (c : Dev nD) (t : Fin cfg1.N) :
    (dat1 V c).flushed 3 t = ((cfg1.win 3).blk t).view.read (Elt Ideal)
      (Layers.logits (V c main_v43) (V c main_arg4) (V c main_v44)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x16) hz, View.ld_unit_zero (S := S1x16) hz]
  funext j
  have hN : cfg1.N = 10 := N_1
  have ht : t.val < 10 := by have := t.isLt; omega
  have hj0 : (j 0).val < 5000 := (j 0).isLt
  have hj1 : (j 1).val < 16 := (j 1).isLt
  obtain ⟨p, q, rfl⟩ : ∃ (p : Fin 5000) (q : Fin 16), j = ix2 p q :=
    ⟨⟨(j 0).val, hj0⟩, ⟨(j 1).val, hj1⟩, funext fun a => Fin.ext (by match a with | ⟨0, _⟩ => rfl | ⟨1, _⟩ => rfl)⟩
  have hr : t.val * 5000 + p.val < 50000 := by have := p.isLt; omega
  obtain ⟨-, -, -, -, -, -, e0, e1⟩ := idx1 t
  have he : ((cfg1.win 3).blk t).view.emb (ix2 p q) = ix2 ⟨t.val * 5000 + p.val, hr⟩ q := funext fun a => Fin.ext (by
    match a with
    | ⟨0, _⟩ => show win1_3.index t (0 : Fin 2) * 5000 + 1 * p.val = t.val * 5000 + p.val; rw [e0]; omega
    | ⟨1, _⟩ => show win1_3.index t (1 : Fin 2) * 16 + 1 * q.val = q.val; rw [e1]; omega)
  show k1_pay1 (iblk1 V c 0 t) (iblk1 V c 1 t) (iblk1 V c 2 t) (ix2 p q)
      = Layers.logits (V c main_v43) (V c main_arg4) (V c main_v44) (((cfg1.win 3).blk t).view.emb (ix2 p q))
  rw [he, Layers.logits_apply]
  refine (Pay.pay1_apply (iblk1 V c 0 t) (iblk1 V c 1 t) (iblk1 V c 2 t) p q).trans ?_
  simp only [read1_0 V c t p _ hr, read1_1 V c t, read1_2 V c t q]
  rfl

/-- An index of the output array is in point `t`'s block iff each coordinate is in the block's range. -/
theorem mem_blk1 (t : Fin cfg1.N) (i : S50000x16.Idx) :
    i ∈ ((cfg1.win 3).blk t).view.set ↔ ∀ a : Fin 2, win1_3.index t a * S5000x16.size a ≤ (i a).val
      ∧ (i a).val < win1_3.index t a * S5000x16.size a + S5000x16.size a := by
  show i ∈ ((View.whole main_v45).slice (win1_3.rect t)).set ↔ _
  rw [View.set_slice_whole, Rect.mem_set_unit]
  exact Iff.rfl

/-- Every row is in the block of the point `row / 5000`. -/
theorem cover1 (i : S50000x16.Idx) :
    ∃ t : Fin cfg1.N, (cfg1.win 3).flush t = true ∧ i ∈ ((cfg1.win 3).blk t).view.set := by
  have hi0 : (i 0).val < 50000 := (i 0).isLt
  have hi1 : (i 1).val < 16 := (i 1).isLt
  have hN : cfg1.N = 10 := N_1
  refine ⟨⟨(i 0).val / 5000, by rw [hN]; omega⟩, flush1_3 _, ?_⟩
  rw [mem_blk1]
  obtain ⟨-, -, -, -, -, -, e0, e1⟩ := idx1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 16 ≤ (i 1).val ∧ (i 1).val < win1_3.index _ (1 : Fin 2) * 16 + 16
    rw [e1]; omega

/-- The second kernel's output array after its ten points: the output layer of the arrays it found. -/
theorem final1 (c : Dev nD) :
    (dat1 V c).arrAt 3 cfg1.N = Layers.logits (V c main_v43) (V c main_arg4) (V c main_v44) :=
  (dat1 V c).arrAt_eq_of_cover 3 _ (fun t _ => flushed1 V c t) cover1

end Cert.KernelIdeal.Blocks

end
-- ==== Proof.RefLayers.lean ====
/-
  The plain array program, stage by stage, in the same three pieces as the tiled one.

  Its run ends at one composed term of the arguments. Read one operation at a time, that term is
      logits (gm (hidden (gm x e) W₁ b₁ mask) e) W₂ b₂,
  where `gm` is the mean over incoming edges (gather the source rows, add them up at the destination rows, divide by
  the in-degree clamped below at one) — which this module never opens: both of its occurrences are the SAME chain of
  array operations, applied once to the input features and once to the hidden layer —, and `hidden`, `logits` are
  the dense layers of `Layers`, met entry by entry: a `dot_general` entry is the sum over the 128 contracted
  coordinates, the bias is broadcast along the rows, `relu` is the maximum with zero.
-/
import proofs.«116009_j10436770529504_1_alg».proof.Proof.Gen.ReferenceIdeal.Read
import proofs.«116009_j10436770529504_1_alg».proof.Proof.Layers

noncomputable section

namespace Cert.ReferenceIdeal.Stages

open Cert.ReferenceIdeal Cert.ReferenceIdeal.Gen Cert.ReferenceIdeal.Read
open Idealize.ShloMosaic Idealize.ShloMosaic.ValueIdx

/-! ### The operand indices of the two products and of the bias broadcasts, at row `p` and column `q` -/

theorem lidx23 (p : Fin 50000) (q k : Fin 128) : lidx_main_v23 (ix2 p q) k = ix2 p k :=
  funext fun a => Fin.ext (by match a with | ⟨0, _⟩ => rfl | ⟨1, _⟩ => rfl)
theorem ridx23 (p : Fin 50000) (q k : Fin 128) : ridx_main_v23 (ix2 p q) k = ix2 k q :=
  funext fun a => Fin.ext (by match a with | ⟨0, _⟩ => rfl | ⟨1, _⟩ => rfl)
theorem idx25 (p : Fin 50000) (q : Fin 128) : idx_main_v25 (ix2 p q) = ix2 (0 : Fin 1) q :=
  funext fun a => Fin.ext (by match a with | ⟨0, _⟩ => rfl | ⟨1, _⟩ => rfl)
theorem lidx48 (p : Fin 50000) (q : Fin 16) (k : Fin 128) : lidx_main_v48 (ix2 p q) k = ix2 p k :=
  funext fun a => Fin.ext (by match a with | ⟨0, _⟩ => rfl | ⟨1, _⟩ => rfl)
theorem ridx48 (p : Fin 50000) (q : Fin 16) (k : Fin 128) : ridx_main_v48 (ix2 p q) k = ix2 k q :=
  funext fun a => Fin.ext (by match a with | ⟨0, _⟩ => rfl | ⟨1, _⟩ => rfl)
theorem idx50 (p : Fin 50000) (q : Fin 16) : idx_main_v50 (ix2 p q) = ix2 (0 : Fin 1) q :=
  funext fun a => Fin.ext (by match a with | ⟨0, _⟩ => rfl | ⟨1, _⟩ => rfl)

/-! ### The stages -/

/-- The masked hidden activations are the hidden layer of the first edge mean. -/
theorem hidden_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x6 : (⟨S50000x128, .f32⟩ : BufTy).Contents (Elt Ideal)) :
    val_main_v28 (F := Ideal) x0 x1 x2 x3 x6
      = Layers.hidden (val_main_v22 (F := Ideal) x0 x1) x2 (val_main_v24 (F := Ideal) x3) x6 := by
  funext i
  obtain ⟨p, q, rfl⟩ : ∃ (p : Fin 50000) (q : Fin 128), i = ix2 p q := ⟨i 0, i 1, eq_ix2 i⟩
  rw [Layers.hidden_apply, val_main_v28_apply, val_main_v27_apply, val_main_v26_apply, val_main_v23_apply,
    val_main_v25_apply, val_main_call0_v0_apply, val_main_call0_cst_apply]
  simp only [lidx23, ridx23, idx25]
  rfl

/-- The second edge mean is the first one's chain of operations, applied to the hidden activations. -/
theorem mean2_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x6 : (⟨S50000x128, .f32⟩ : BufTy).Contents (Elt Ideal)) :
    val_main_v47 (F := Ideal) x0 x1 x2 x3 x6
      = val_main_v22 (F := Ideal) (val_main_v28 (F := Ideal) x0 x1 x2 x3 x6) x1 := by
  unfold val_main_v47 val_main_v38 val_main_v35
  generalize val_main_v28 (F := Ideal) x0 x1 x2 x3 x6 = h
  unfold val_main_v22 val_main_v13 val_main_v10
  have e36 : val_main_v36 (F := Ideal) = val_main_v11 (F := Ideal) := rfl
  have e37 : val_main_v37 (F := Ideal) x1 = val_main_v12 (F := Ideal) x1 := rfl
  have e34 : val_main_v34 (F := Ideal) x1 = val_main_v9 (F := Ideal) x1 := rfl
  have e46 : val_main_v46 (F := Ideal) x1 = val_main_v21 (F := Ideal) x1 := rfl
  rw [e36, e37, e34, e46]

/-- The result is the output layer of the second edge mean. -/
theorem logits_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x16, .f32⟩ : BufTy).Contents (Elt Ideal)) (x5 : (⟨S16, .f32⟩ : BufTy).Contents (Elt Ideal))
    (x6 : (⟨S50000x128, .f32⟩ : BufTy).Contents (Elt Ideal)) :
    val_main_v51 (F := Ideal) x0 x1 x2 x3 x4 x5 x6
      = Layers.logits (val_main_v47 (F := Ideal) x0 x1 x2 x3 x6) x4 (val_main_v49 (F := Ideal) x5) := by
  funext i
  obtain ⟨p, q, rfl⟩ : ∃ (p : Fin 50000) (q : Fin 16), i = ix2 p q := ⟨i 0, i 1, eq_ix2 i⟩
  rw [Layers.logits_apply, val_main_v51_apply, val_main_v48_apply, val_main_v50_apply]
  simp only [lidx48, ridx48, idx50]
  rfl

end Cert.ReferenceIdeal.Stages

end
-- ==== Proof.Bridge.lean ====
/-
  The tiled program's result array as ONE function of the arguments, in the reference's own terms.

  @main is: host operations, the first kernel, host operations, the second kernel. The contents of the buffers at the
  three boundaries are read off in turn:
    * the first stretch leaves the edge mean of the input features (the reference's own first chain of operations —
      the same operations in the same order, so the same function, never opened) and the bias as a `[1,128]` row;
    * the first kernel leaves `Layers.hidden` of those (its blocks tile the 50000 rows);
    * the second stretch applies the same edge-mean chain to that array, and reshapes the second bias;
    * the second kernel leaves `Layers.logits` of those.
  The kernel's bias row is a reshape `[n] → [1,n]` where the reference broadcasts `[n]` into `[1,n]`: the same row.
-/
import proofs.«116009_j10436770529504_1_alg».proof.Proof.KernelRun
import proofs.«116009_j10436770529504_1_alg».proof.Proof.RegionValues
import proofs.«116009_j10436770529504_1_alg».proof.Proof.RefLayers
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read (val_main_v1 val_main_v3 val_main_v22 val_main_v24 val_main_v49)

/-! ## The bias rows -/

/-- A vector reshaped to one row is the vector broadcast into one row. -/
theorem biasRow128 (b : FVec Ideal ⟨1, ![128]⟩ .f32) (h : (⟨1, ![128]⟩ : Shape).ShapeCasts ⟨2, ![1, 128]⟩) :
    shapeCast ⟨2, ![1, 128]⟩ b h = val_main_v24 (F := Ideal) b := by
  funext i
  obtain ⟨u, q, rfl⟩ : ∃ (u : Fin 1) (q : Fin 128), i = ix2 u q := ⟨i 0, i 1, eq_ix2 i⟩
  rw [shapeCast_a_1a_apply, Cert.ReferenceIdeal.Read.val_main_v24_apply]
  exact congrArg b (funext fun a => Fin.ext (by match a with | ⟨0, _⟩ => rfl))

theorem biasRow16 (b : FVec Ideal ⟨1, ![16]⟩ .f32) (h : (⟨1, ![16]⟩ : Shape).ShapeCasts ⟨2, ![1, 16]⟩) :
    shapeCast ⟨2, ![1, 16]⟩ b h = val_main_v49 (F := Ideal) b := by
  funext i
  obtain ⟨u, q, rfl⟩ : ∃ (u : Fin 1) (q : Fin 16), i = ix2 u q := ⟨i 0, i 1, eq_ix2 i⟩
  rw [shapeCast_a_1a_apply, Cert.ReferenceIdeal.Read.val_main_v49_apply]
  exact congrArg b (funext fun a => Fin.ext (by match a with | ⟨0, _⟩ => rfl))

/-! ## The two stretches of host operations, from any buffer contents `W` -/

section Stretches
variable (W : Valuation τ sig (Elt Ideal))

/-- The first stretch leaves the source and destination node of every edge, -/
theorem s0_v1 : StableHlo.after hostOps0 W (Proc.devRef .tc main_v1) = val_main_v1 (F := Ideal) (W (Proc.devRef .tc main_arg1)) := by
  simp only [hostOps0]; after_results_simp; rfl
theorem s0_v3 : StableHlo.after hostOps0 W (Proc.devRef .tc main_v3) = val_main_v3 (F := Ideal) (W (Proc.devRef .tc main_arg1)) := by
  simp only [hostOps0]; after_results_simp; rfl
/-- the mean of the input features over incoming edges, -/
theorem s0_v22 : StableHlo.after hostOps0 W (Proc.devRef .tc main_v22)
    = val_main_v22 (F := Ideal) (W (Proc.devRef .tc main_arg0)) (W (Proc.devRef .tc main_arg1)) := by
  simp only [hostOps0]; after_results_simp; rfl
/-- the first bias as a row, -/
theorem s0_v23 : StableHlo.after hostOps0 W (Proc.devRef .tc main_v23)
    = shapeCast S1x128 (W (Proc.devRef .tc main_arg3)) Facts₀.shapeCasts_S128_S1x128 := by
  simp only [hostOps0]; after_results_simp; rfl
/-- and the arguments where they were. -/
theorem s0_arg2 : StableHlo.after hostOps0 W (Proc.devRef .tc main_arg2) = W (Proc.devRef .tc main_arg2) := by
  simp only [hostOps0]; after_results_simp
theorem s0_arg4 : StableHlo.after hostOps0 W (Proc.devRef .tc main_arg4) = W (Proc.devRef .tc main_arg4) := by
  simp only [hostOps0]; after_results_simp
theorem s0_arg5 : StableHlo.after hostOps0 W (Proc.devRef .tc main_arg5) = W (Proc.devRef .tc main_arg5) := by
  simp only [hostOps0]; after_results_simp
theorem s0_arg6 : StableHlo.after hostOps0 W (Proc.devRef .tc main_arg6) = W (Proc.devRef .tc main_arg6) := by
  simp only [hostOps0]; after_results_simp

/-- The second stretch leaves the mean over incoming edges of the first kernel's output — the same chain of operations
    as the first mean, on the edge lists the first stretch left —, -/
theorem s1_v43 (x1 : (⟨S2x800000, .i32⟩ : BufTy).Contents (Elt Ideal))
    (h1 : W (Proc.devRef .tc main_v1) = val_main_v1 (F := Ideal) x1) (h3 : W (Proc.devRef .tc main_v3) = val_main_v3 (F := Ideal) x1) :
    StableHlo.after hostOps1 W (Proc.devRef .tc main_v43) = val_main_v22 (F := Ideal) (W (Proc.devRef .tc main_v24)) x1 := by
  simp only [hostOps1]; after_results_simp
  rw [h1, h3]
  rfl
/-- the second bias as a row, -/
theorem s1_v44 : StableHlo.after hostOps1 W (Proc.devRef .tc main_v44)
    = shapeCast S1x16 (W (Proc.devRef .tc main_arg5)) Facts₀.shapeCasts_S16_S1x16 := by
  simp only [hostOps1]; after_results_simp; rfl
/-- and the second weights where they were. -/
theorem s1_arg4 : StableHlo.after hostOps1 W (Proc.devRef .tc main_arg4) = W (Proc.devRef .tc main_arg4) := by
  simp only [hostOps1]; after_results_simp

end Stretches

/-! ## The result -/

variable (m : (ℓ : Loc nD τ sig) → Buf (Elt Ideal) ℓ) (ρ : Dev nD → PrngReg)

/-- The network's output as a function of the seven arguments: two rounds of "mean over incoming edges, then a dense
    layer", the edge mean being the reference's own chain of operations. -/
def net (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x16, .f32⟩ : BufTy).Contents (Elt Ideal)) (x5 : (⟨S16, .f32⟩ : BufTy).Contents (Elt Ideal))
    (x6 : (⟨S50000x128, .f32⟩ : BufTy).Contents (Elt Ideal)) : (⟨S50000x16, .f32⟩ : BufTy).Contents (Elt Ideal) :=
  Layers.logits (val_main_v22 (F := Ideal) (Layers.hidden (val_main_v22 (F := Ideal) x0 x1) x2 (val_main_v24 (F := Ideal) x3) x6) x1)
    x4 (val_main_v49 (F := Ideal) x5)

/-- What the first kernel's output array holds at the second stretch's entry. -/
theorem hidden_at (c : Dev nD) :
    W2 m ρ c (Proc.devRef .tc main_v24)
      = Layers.hidden (val_main_v22 (F := Ideal) (m ((c.tc : Thread nD τ).loc main_arg0)) (m ((c.tc : Thread nD τ).loc main_arg1)))
          (m ((c.tc : Thread nD τ).loc main_arg2)) (val_main_v24 (F := Ideal) (m ((c.tc : Thread nD τ).loc main_arg3)))
          (m ((c.tc : Thread nD τ).loc main_arg6)) := by
  have e22 : V1 m ρ c main_v22 = val_main_v22 (F := Ideal) (m ((c.tc : Thread nD τ).loc main_arg0)) (m ((c.tc : Thread nD τ).loc main_arg1)) :=
    s0_v22 (W0 m ρ c)
  have e2 : V1 m ρ c main_arg2 = m ((c.tc : Thread nD τ).loc main_arg2) := s0_arg2 (W0 m ρ c)
  have e23 : V1 m ρ c main_v23 = val_main_v24 (F := Ideal) (m ((c.tc : Thread nD τ).loc main_arg3)) :=
    (s0_v23 (W0 m ρ c)).trans (biasRow128 _ _)
  have e6 : V1 m ρ c main_arg6 = m ((c.tc : Thread nD τ).loc main_arg6) := s0_arg6 (W0 m ρ c)
  refine (W2_arr m ρ c 4).trans ((Blocks.final0 (V1 m ρ) c).trans ?_)
  rw [e22, e2, e23, e6]

/-- The result array after the run. -/
theorem result_at (c : Dev nD) :
    W4 m ρ c (Proc.devRef .tc main_v45)
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  have h1 : W2 m ρ c (Proc.devRef .tc main_v1) = val_main_v1 (F := Ideal) (m ((c.tc : Thread nD τ).loc main_arg1)) :=
    (W2_of_ne m ρ c main_v1 (by decide)).trans (s0_v1 (W0 m ρ c))
  have h3 : W2 m ρ c (Proc.devRef .tc main_v3) = val_main_v3 (F := Ideal) (m ((c.tc : Thread nD τ).loc main_arg1)) :=
    (W2_of_ne m ρ c main_v3 (by decide)).trans (s0_v3 (W0 m ρ c))
  have e43 : V3 m ρ c main_v43 = val_main_v22 (F := Ideal) (W2 m ρ c (Proc.devRef .tc main_v24)) (m ((c.tc : Thread nD τ).loc main_arg1)) :=
    s1_v43 (W2 m ρ c) _ h1 h3
  have e4 : V3 m ρ c main_arg4 = m ((c.tc : Thread nD τ).loc main_arg4) :=
    (s1_arg4 (W2 m ρ c)).trans ((W2_of_ne m ρ c main_arg4 (by decide)).trans (s0_arg4 (W0 m ρ c)))
  have e44 : V3 m ρ c main_v44 = val_main_v49 (F := Ideal) (m ((c.tc : Thread nD τ).loc main_arg5)) := by
    refine (s1_v44 (W2 m ρ c)).trans ?_
    rw [show W2 m ρ c (Proc.devRef .tc main_arg5) = m ((c.tc : Thread nD τ).loc main_arg5) from
      (W2_of_ne m ρ c main_arg5 (by decide)).trans (s0_arg5 (W0 m ρ c))]
    exact biasRow16 _ _
  refine (W4_arr m ρ c 3).trans ((Blocks.final1 (V3 m ρ) c).trans ?_)
  rw [e43, e4, e44, hidden_at m ρ c]
  rfl

/-- The reference's composed result, read stage by stage, is the same function of the arguments. -/
theorem ref_net (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x16, .f32⟩ : BufTy).Contents (Elt Ideal))
    (x5 : (⟨Cert.ReferenceIdeal.S16, .f32⟩ : BufTy).Contents (Elt Ideal))
    (x6 : (⟨Cert.ReferenceIdeal.S50000x128, .f32⟩ : BufTy).Contents (Elt Ideal)) :
    Cert.ReferenceIdeal.Read.val_main_v51 (F := Ideal) x0 x1 x2 x3 x4 x5 x6 = net x0 x1 x2 x3 x4 x5 x6 := by
  rw [Cert.ReferenceIdeal.Stages.logits_eq, Cert.ReferenceIdeal.Stages.mean2_eq, Cert.ReferenceIdeal.Stages.hidden_eq]
  rfl

end Cert.KernelIdeal.Whole

end
-- ==== Proof.lean ====
/-
  A two-layer graph network on 50000 nodes and 800000 edges: twice "average each node's incoming neighbours, then a
  dense layer" (128 → 128 with bias, relu and a dropout mask; then 128 → 16 with bias).

  The kernel program and the reference run the SAME array operations for the two neighbour averages (gather the source
  rows, add them up at the destination rows, divide by the in-degree clamped below at one); they differ only in the two
  dense layers, which the kernel program computes in two row-tiled kernels (ten blocks of 5000 rows, the inputs cast to
  bf16, a matrix product into a zero accumulator) and the reference as a whole-array `dot_general` plus broadcasts.
  Over the extended reals the casts are the identity and either product's entry is the sum over the 128 contracted
  coordinates, so each kernel's output array is the reference's layer of its input arrays (`Layers.hidden`,
  `Layers.logits`); since the tiling is by rows and every contraction runs over a whole row, no sum is re-associated and
  no law that would need finite inputs is used. Both results are `Whole.net` of the seven arguments.

  The three frames: the two kernel programs' from their launch over the four segments of @main (host, kernel, host,
  kernel); the reference's from its run as a straight line of array operations. The idealization rewrote nothing.
-/
import proofs.«116009_j10436770529504_1_alg».proof.Defs
import proofs.«116009_j10436770529504_1_alg».proof.Proof.Gen.Kernel
import proofs.«116009_j10436770529504_1_alg».proof.Proof.Gen.Kernel.Frame
import proofs.«116009_j10436770529504_1_alg».proof.Proof.Gen.KernelIdeal
import proofs.«116009_j10436770529504_1_alg».proof.Proof.Gen.KernelIdeal.Frame
import proofs.«116009_j10436770529504_1_alg».proof.Proof.Gen.ReferenceIdeal
import proofs.«116009_j10436770529504_1_alg».proof.Proof.Gen.ReferenceIdeal.Run
import proofs.«116009_j10436770529504_1_alg».proof.Proof.Gen.ReferenceIdeal.Read
import proofs.«116009_j10436770529504_1_alg».proof.Proof.Gen.Pre_finite_inputs
import proofs.«116009_j10436770529504_1_alg».proof.Proof.KernelRun
import proofs.«116009_j10436770529504_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result array at `Whole.net` of the arguments. -/
theorem algebraic : Cert.algebraic_KernelIdeal_ReferenceIdeal := by
  intro m ρ m' ρ' _ hagree
  refine ⟨fun c => Cert.KernelIdeal.Whole.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Whole.result_at m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, (hagree c).1, (hagree c).2.1, (hagree c).2.2.1, (hagree c).2.2.2.1,
      (hagree c).2.2.2.2.1, (hagree c).2.2.2.2.2.1, (hagree c).2.2.2.2.2.2]
    exact Cert.KernelIdeal.Whole.ref_net _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
